-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel

variable [Facts]

def fn {F : FTy → Type} [FloatOps F] (main_arg0 : FVec F S4194304x8 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  main_v3
-- ==== Kernel.lean ====
abbrev S4194304x8 : Shape := ⟨2, ![4194304, 8]⟩
abbrev S4194304x32 : Shape := ⟨2, ![4194304, 32]⟩
abbrev S4096x8 : Shape := ⟨2, ![4096, 8]⟩
abbrev S4096x32 : Shape := ⟨2, ![4096, 32]⟩
abbrev S4096x1 : Shape := ⟨2, ![4096, 1]⟩
abbrev S4096x23 : Shape := ⟨2, ![4096, 23]⟩

abbrev nBuf : Space → Nat
  | .hbm => 2
  | .vmem => 4
  | .smem => 0
  | _ => 0

abbrev bufTy : (tb : Table) → Fin (tcTables nBuf tb) → BufTy
  | .hbm, ⟨0, _⟩ => ⟨S4194304x8, .f32⟩
  | .hbm, ⟨1, _⟩ => ⟨S4194304x32, .f32⟩
  | .local _ .vmem, ⟨0, _⟩ => ⟨S4096x8, .f32⟩
  | .local _ .vmem, ⟨1, _⟩ => ⟨S4096x8, .f32⟩
  | .local _ .vmem, ⟨2, _⟩ => ⟨S4096x32, .f32⟩
  | .local _ .vmem, ⟨3, _⟩ => ⟨S4096x32, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4096x8_S4096x8_0_0 : ∀ a, (![0, 0] : Fin 2 → Nat) a + S4096x8.size a ≤ S4096x8.size a
  h_S4096x8 : 0 < S4096x8.numel
  slices_S4096x8_o0_0_S4096x1 : S4096x8.Slices ![0, 0] S4096x1
  slices_S4096x8_o0_1_S4096x1 : S4096x8.Slices ![0, 1] S4096x1
  slices_S4096x8_o0_2_S4096x1 : S4096x8.Slices ![0, 2] S4096x1
  slices_S4096x8_o0_3_S4096x1 : S4096x8.Slices ![0, 3] S4096x1
  slices_S4096x8_o0_4_S4096x1 : S4096x8.Slices ![0, 4] S4096x1
  slices_S4096x8_o0_5_S4096x1 : S4096x8.Slices ![0, 5] S4096x1
  slices_S4096x8_o0_6_S4096x1 : S4096x8.Slices ![0, 6] S4096x1
  slices_S4096x8_o0_7_S4096x1 : S4096x8.Slices ![0, 7] S4096x1
  concatenates_S4096x1_S4096x1_S4096x1_S4096x1_S4096x1_S4096x1_S4096x1_S4096x1_S4096x8_d1 : Shape.Concatenates [S4096x1, S4096x1, S4096x1, S4096x1, S4096x1, S4096x1, S4096x1, S4096x1] S4096x8 1
  shapeCasts_S4096x1_S4096x1 : S4096x1.ShapeCasts S4096x1
  broadcasts_S4096x1_S4096x8 : S4096x1.Broadcasts S4096x8
  concatenates_S4096x1_S4096x1_S4096x1_S4096x1_S4096x1_S4096x1_S4096x1_S4096x1_S4096x1_S4096x1_S4096x1_S4096x1_S4096x1_S4096x1_S4096x1_S4096x1_S4096x1_S4096x1_S4096x1_S4096x1_S4096x1_S4096x1_S4096x1_S4096x23_d1 : Shape.Concatenates [S4096x1, S4096x1, S4096x1, S4096x1, S4096x1, S4096x1, S4096x1, S4096x1, S4096x1, S4096x1, S4096x1, S4096x1, S4096x1, S4096x1, S4096x1, S4096x1, S4096x1, S4096x1, S4096x1, S4096x1, S4096x1, S4096x1, S4096x1] S4096x23 1
  broadcasts_S4096x1_S4096x23 : S4096x1.Broadcasts S4096x23
  concatenates_S4096x1_S4096x8_S4096x23_S4096x32_d1 : Shape.Concatenates [S4096x1, S4096x8, S4096x23] S4096x32 1
  inb_S4096x32_S4096x32_0_0 : ∀ a, (![0, 0] : Fin 2 → Nat) a + S4096x32.size a ≤ S4096x32.size a
  h_S4096x32 : 0 < S4096x32.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S4194304x8.size a
  hwx0_0 : ∀ i : grid0.Coords, EltTy.bits .f32 = 32 ∨ (Rect.block (s := S4194304x8) S4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S4194304x32.size a
  hwx0_1 : ∀ i : grid0.Coords, EltTy.bits .f32 = 32 ∨ (Rect.block (s := S4194304x32) S4096x32.size (cc0_transform_1 i) (hinb0_1 i)).WholeWords (EltTy.packing .f32)

variable [Facts₀]

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S4194304x1 : Shape := ⟨2, ![4194304, 1]⟩
abbrev S_ : Shape := ⟨0, ![]⟩
abbrev S4194304x16 : Shape := ⟨2, ![4194304, 16]⟩
abbrev S4194304x7 : Shape := ⟨2, ![4194304, 7]⟩
abbrev S4194304x23 : Shape := ⟨2, ![4194304, 23]⟩
abbrev S4194304x32 : Shape := ⟨2, ![4194304, 32]⟩

abbrev nBuf : Space → Nat
  | .hbm => 265
  | .vmem => 0
  | .smem => 0
  | _ => 0

abbrev hbmTy0_0 (i : Nat) : BufTy := match i % 128 with
  | 0 => ⟨S4194304x8, .f32⟩
  | 1 => ⟨S4194304x1, .f32⟩
  | 2 => ⟨S_, .f32⟩
  | 3 => ⟨S4194304x1, .f32⟩
  | 4 => ⟨S_, .f32⟩
  | 5 => ⟨S4194304x1, .f32⟩
  | 6 => ⟨S4194304x1, .f32⟩
  | 7 => ⟨S4194304x1, .f32⟩
  | 8 => ⟨S4194304x1, .f32⟩
  | 9 => ⟨S4194304x1, .f32⟩
  | 10 => ⟨S4194304x1, .f32⟩
  | 11 => ⟨S4194304x1, .f32⟩
  | 12 => ⟨S4194304x1, .f32⟩
  | 13 => ⟨S4194304x1, .f32⟩
  | 14 => ⟨S4194304x1, .f32⟩
  | 15 => ⟨S4194304x1, .f32⟩
  | 16 => ⟨S4194304x1, .f32⟩
  | 17 => ⟨S4194304x1, .f32⟩
  | 18 => ⟨S4194304x1, .f32⟩
  | 19 => ⟨S4194304x1, .f32⟩
  | 20 => ⟨S4194304x1, .f32⟩
  | 21 => ⟨S4194304x1, .f32⟩
  | 22 => ⟨S4194304x1, .f32⟩
  | 23 => ⟨S_, .f32⟩
  | 24 => ⟨S4194304x1, .f32⟩
  | 25 => ⟨S4194304x1, .f32⟩
  | 26 => ⟨S4194304x1, .f32⟩
  | 27 => ⟨S4194304x1, .f32⟩
  | 28 => ⟨S4194304x1, .f32⟩
  | 29 => ⟨S4194304x1, .f32⟩
  | 30 => ⟨S4194304x1, .f32⟩
  | 31 => ⟨S4194304x1, .f32⟩
  | 32 => ⟨S4194304x1, .f32⟩
  | 33 => ⟨S4194304x8, .f32⟩
  | 34 => ⟨S4194304x8, .f32⟩
  | 35 => ⟨S4194304x1, .f32⟩
  | 36 => ⟨S_, .f32⟩
  | 37 => ⟨S4194304x1, .f32⟩
  | 38 => ⟨S4194304x1, .f32⟩
  | 39 => ⟨S4194304x1, .f32⟩
  | 40 => ⟨S4194304x1, .f32⟩
  | 41 => ⟨S_, .f32⟩
  | 42 => ⟨S4194304x1, .f32⟩
  | 43 => ⟨S4194304x1, .f32⟩
  | 44 => ⟨S4194304x1, .f32⟩
  | 45 => ⟨S4194304x1, .f32⟩
  | 46 => ⟨S4194304x1, .f32⟩
  | 47 => ⟨S_, .f32⟩
  | 48 => ⟨S4194304x1, .f32⟩
  | 49 => ⟨S4194304x1, .f32⟩
  | 50 => ⟨S4194304x1, .f32⟩
  | 51 => ⟨S4194304x1, .f32⟩
  | 52 => ⟨S4194304x1, .f32⟩
  | 53 => ⟨S4194304x1, .f32⟩
  | 54 => ⟨S4194304x1, .f32⟩
  | 55 => ⟨S4194304x1, .f32⟩
  | 56 => ⟨S4194304x1, .f32⟩
  | 57 => ⟨S4194304x1, .f32⟩
  | 58 => ⟨S4194304x1, .f32⟩
  | 59 => ⟨S4194304x1, .f32⟩
  | 60 => ⟨S_, .f32⟩
  | 61 => ⟨S4194304x1, .f32⟩
  | 62 => ⟨S4194304x1, .f32⟩
  | 63 => ⟨S4194304x1, .f32⟩
  | 64 => ⟨S4194304x1, .f32⟩
  | 65 => ⟨S4194304x1, .f32⟩
  | 66 => ⟨S_, .f32⟩
  | 67 => ⟨S4194304x1, .f32⟩
  | 68 => ⟨S4194304x1, .f32⟩
  | 69 => ⟨S4194304x1, .f32⟩
  | 70 => ⟨S4194304x1, .f32⟩
  | 71 => ⟨S4194304x1, .f32⟩
  | 72 => ⟨S4194304x1, .f32⟩
  | 73 => ⟨S4194304x1, .f32⟩
  | 74 => ⟨S4194304x1, .f32⟩
  | 75 => ⟨S4194304x1, .f32⟩
  | 76 => ⟨S4194304x1, .f32⟩
  | 77 => ⟨S4194304x1, .f32⟩
  | 78 => ⟨S4194304x1, .f32⟩
  | 79 => ⟨S_, .f32⟩
  | 80 => ⟨S4194304x1, .f32⟩
  | 81 => ⟨S4194304x1, .f32⟩
  | 82 => ⟨S4194304x1, .f32⟩
  | 83 => ⟨S4194304x1, .f32⟩
  | 84 => ⟨S4194304x1, .f32⟩
  | 85 => ⟨S_, .f32⟩
  | 86 => ⟨S4194304x1, .f32⟩
  | 87 => ⟨S4194304x1, .f32⟩
  | 88 => ⟨S4194304x1, .f32⟩
  | 89 => ⟨S4194304x1, .f32⟩
  | 90 => ⟨S4194304x1, .f32⟩
  | 91 => ⟨S4194304x1, .f32⟩
  | 92 => ⟨S4194304x1, .f32⟩
  | 93 => ⟨S4194304x1, .f32⟩
  | 94 => ⟨S4194304x1, .f32⟩
  | 95 => ⟨S4194304x1, .f32⟩
  | 96 => ⟨S4194304x1, .f32⟩
  | 97 => ⟨S4194304x1, .f32⟩
  | 98 => ⟨S_, .f32⟩
  | 99 => ⟨S4194304x1, .f32⟩
  | 100 => ⟨S4194304x1, .f32⟩
  | 101 => ⟨S4194304x1, .f32⟩
  | 102 => ⟨S4194304x1, .f32⟩
  | 103 => ⟨S4194304x1, .f32⟩
  | 104 => ⟨S_, .f32⟩
  | 105 => ⟨S4194304x1, .f32⟩
  | 106 => ⟨S4194304x1, .f32⟩
  | 107 => ⟨S4194304x1, .f32⟩
  | 108 => ⟨S4194304x1, .f32⟩
  | 109 => ⟨S4194304x1, .f32⟩
  | 110 => ⟨S4194304x1, .f32⟩
  | 111 => ⟨S4194304x1, .f32⟩
  | 112 => ⟨S4194304x1, .f32⟩
  | 113 => ⟨S4194304x1, .f32⟩
  | 114 => ⟨S4194304x1, .f32⟩
  | 115 => ⟨S4194304x1, .f32⟩
  | 116 => ⟨S4194304x1, .f32⟩
  | 117 => ⟨S_, .f32⟩
  | 118 => ⟨S4194304x1, .f32⟩
  | 119 => ⟨S4194304x1, .f32⟩
  | 120 => ⟨S4194304x1, .f32⟩
  | 121 => ⟨S4194304x1, .f32⟩
  | 122 => ⟨S4194304x1, .f32⟩
  | 123 => ⟨S_, .f32⟩
  | 124 => ⟨S4194304x1, .f32⟩
  | 125 => ⟨S4194304x1, .f32⟩
  | 126 => ⟨S4194304x1, .f32⟩
  | 127 => ⟨S4194304x1, .f32⟩
  | _ => ⟨S4194304x8, .f32⟩

abbrev hbmTy0_1 (i : Nat) : BufTy := match i % 128 with
  | 0 => ⟨S4194304x1, .f32⟩
  | 1 => ⟨S4194304x1, .f32⟩
  | 2 => ⟨S4194304x1, .f32⟩
  | 3 => ⟨S4194304x1, .f32⟩
  | 4 => ⟨S4194304x1, .f32⟩
  | 5 => ⟨S4194304x1, .f32⟩
  | 6 => ⟨S4194304x1, .f32⟩
  | 7 => ⟨S4194304x1, .f32⟩
  | 8 => ⟨S_, .f32⟩
  | 9 => ⟨S4194304x1, .f32⟩
  | 10 => ⟨S4194304x1, .f32⟩
  | 11 => ⟨S4194304x1, .f32⟩
  | 12 => ⟨S4194304x1, .f32⟩
  | 13 => ⟨S4194304x1, .f32⟩
  | 14 => ⟨S_, .f32⟩
  | 15 => ⟨S4194304x1, .f32⟩
  | 16 => ⟨S4194304x1, .f32⟩
  | 17 => ⟨S4194304x1, .f32⟩
  | 18 => ⟨S4194304x1, .f32⟩
  | 19 => ⟨S4194304x1, .f32⟩
  | 20 => ⟨S4194304x1, .f32⟩
  | 21 => ⟨S4194304x1, .f32⟩
  | 22 => ⟨S4194304x1, .f32⟩
  | 23 => ⟨S4194304x1, .f32⟩
  | 24 => ⟨S4194304x1, .f32⟩
  | 25 => ⟨S4194304x1, .f32⟩
  | 26 => ⟨S4194304x1, .f32⟩
  | 27 => ⟨S_, .f32⟩
  | 28 => ⟨S4194304x1, .f32⟩
  | 29 => ⟨S4194304x1, .f32⟩
  | 30 => ⟨S4194304x1, .f32⟩
  | 31 => ⟨S4194304x1, .f32⟩
  | 32 => ⟨S4194304x1, .f32⟩
  | 33 => ⟨S_, .f32⟩
  | 34 => ⟨S4194304x1, .f32⟩
  | 35 => ⟨S4194304x1, .f32⟩
  | 36 => ⟨S4194304x1, .f32⟩
  | 37 => ⟨S4194304x1, .f32⟩
  | 38 => ⟨S4194304x1, .f32⟩
  | 39 => ⟨S4194304x1, .f32⟩
  | 40 => ⟨S4194304x1, .f32⟩
  | 41 => ⟨S4194304x1, .f32⟩
  | 42 => ⟨S4194304x1, .f32⟩
  | 43 => ⟨S4194304x1, .f32⟩
  | 44 => ⟨S4194304x1, .f32⟩
  | 45 => ⟨S4194304x1, .f32⟩
  | 46 => ⟨S_, .f32⟩
  | 47 => ⟨S4194304x1, .f32⟩
  | 48 => ⟨S4194304x1, .f32⟩
  | 49 => ⟨S4194304x1, .f32⟩
  | 50 => ⟨S4194304x1, .f32⟩
  | 51 => ⟨S4194304x1, .f32⟩
  | 52 => ⟨S_, .f32⟩
  | 53 => ⟨S4194304x1, .f32⟩
  | 54 => ⟨S4194304x1, .f32⟩
  | 55 => ⟨S4194304x1, .f32⟩
  | 56 => ⟨S4194304x1, .f32⟩
  | 57 => ⟨S4194304x1, .f32⟩
  | 58 => ⟨S4194304x1, .f32⟩
  | 59 => ⟨S4194304x1, .f32⟩
  | 60 => ⟨S4194304x1, .f32⟩
  | 61 => ⟨S4194304x1, .f32⟩
  | 62 => ⟨S4194304x8, .f32⟩
  | 63 => ⟨S4194304x8, .f32⟩
  | 64 => ⟨S_, .f32⟩
  | 65 => ⟨S4194304x1, .f32⟩
  | 66 => ⟨S4194304x1, .f32⟩
  | 67 => ⟨S_, .f32⟩
  | 68 => ⟨S4194304x1, .f32⟩
  | 69 => ⟨S4194304x1, .f32⟩
  | 70 => ⟨S4194304x1, .f32⟩
  | 71 => ⟨S4194304x8, .f32⟩
  | 72 => ⟨S4194304x8, .f32⟩
  | 73 => ⟨S4194304x8, .f32⟩
  | 74 => ⟨S4194304x8, .f32⟩
  | 75 => ⟨S4194304x8, .f32⟩
  | 76 => ⟨S4194304x8, .f32⟩
  | 77 => ⟨S_, .f32⟩
  | 78 => ⟨S4194304x8, .f32⟩
  | 79 => ⟨S4194304x8, .f32⟩
  | 80 => ⟨S4194304x8, .f32⟩
  | 81 => ⟨S4194304x8, .f32⟩
  | 82 => ⟨S4194304x8, .f32⟩
  | 83 => ⟨S_, .f32⟩
  | 84 => ⟨S4194304x8, .f32⟩
  | 85 => ⟨S4194304x8, .f32⟩
  | 86 => ⟨S4194304x8, .f32⟩
  | 87 => ⟨S4194304x8, .f32⟩
  | 88 => ⟨S4194304x1, .f32⟩
  | 89 => ⟨S4194304x1, .f32⟩
  | 90 => ⟨S4194304x1, .f32⟩
  | 91 => ⟨S4194304x1, .f32⟩
  | 92 => ⟨S4194304x1, .f32⟩
  | 93 => ⟨S4194304x1, .f32⟩
  | 94 => ⟨S4194304x16, .f32⟩
  | 95 => ⟨S4194304x7, .f32⟩
  | 96 => ⟨S4194304x23, .f32⟩
  | 97 => ⟨S4194304x8, .f32⟩
  | 98 => ⟨S4194304x16, .f32⟩
  | 99 => ⟨S4194304x7, .f32⟩
  | 100 => ⟨S4194304x23, .f32⟩
  | 101 => ⟨S_, .f32⟩
  | 102 => ⟨S4194304x1, .f32⟩
  | 103 => ⟨S4194304x1, .f32⟩
  | 104 => ⟨S4194304x1, .f32⟩
  | 105 => ⟨S4194304x8, .f32⟩
  | 106 => ⟨S4194304x8, .f32⟩
  | 107 => ⟨S4194304x8, .f32⟩
  | 108 => ⟨S_, .f32⟩
  | 109 => ⟨S4194304x8, .f32⟩
  | 110 => ⟨S4194304x8, .f32⟩
  | 111 => ⟨S4194304x8, .f32⟩
  | 112 => ⟨S4194304x8, .f32⟩
  | 113 => ⟨S4194304x8, .f32⟩
  | 114 => ⟨S_, .f32⟩
  | 115 => ⟨S4194304x8, .f32⟩
  | 116 => ⟨S4194304x8, .f32⟩
  | 117 => ⟨S4194304x8, .f32⟩
  | 118 => ⟨S4194304x8, .f32⟩
  | 119 => ⟨S4194304x16, .f32⟩
  | 120 => ⟨S4194304x7, .f32⟩
  | 121 => ⟨S4194304x23, .f32⟩
  | 122 => ⟨S4194304x23, .f32⟩
  | 123 => ⟨S4194304x23, .f32⟩
  | 124 => ⟨S4194304x23, .f32⟩
  | 125 => ⟨S_, .f32⟩
  | 126 => ⟨S4194304x23, .f32⟩
  | 127 => ⟨S4194304x23, .f32⟩
  | _ => ⟨S4194304x8, .f32⟩

abbrev hbmTy0_2 (i : Nat) : BufTy := match i % 128 with
  | 0 => ⟨S4194304x23, .f32⟩
  | 1 => ⟨S4194304x23, .f32⟩
  | 2 => ⟨S4194304x23, .f32⟩
  | 3 => ⟨S_, .f32⟩
  | 4 => ⟨S4194304x23, .f32⟩
  | 5 => ⟨S4194304x23, .f32⟩
  | 6 => ⟨S4194304x23, .f32⟩
  | 7 => ⟨S4194304x23, .f32⟩
  | 8 => ⟨S4194304x32, .f32⟩
  | _ => ⟨S4194304x8, .f32⟩

abbrev hbmTy (i : Nat) : BufTy := match i / 128 with
  | 0 => hbmTy0_0 i
  | 1 => hbmTy0_1 i
  | 2 => hbmTy0_2 i
  | _ => ⟨S4194304x8, .f32⟩

abbrev bufTy : (tb : Table) → Fin (tcTables nBuf tb) → BufTy
  | .hbm, ⟨i, _⟩ => hbmTy i
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_2 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_3 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_4 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_5 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_6 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst_7 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_cst_8 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_9 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_10 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_11 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_cst_12 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_cst_13 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_cst_14 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_cst_15 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_cst_16 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_cst_17 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_cst_18 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_cst_19 : Ref sig .tc := ⟨.hbm, 192, rfl⟩
abbrev main_v171 : Ref sig .tc := ⟨.hbm, 193, rfl⟩
abbrev main_v172 : Ref sig .tc := ⟨.hbm, 194, rfl⟩
abbrev main_cst_20 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_cst_21 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_cst_22 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_cst_23 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_cst_24 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_cst_25 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_cst_26 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_cst_27 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩

abbrev nD : Nat := 1
abbrev τ : Topo := Topo.v7x

variable {F : FTy → Type} [FloatOps F]

class Facts₀ : Prop where
  slices_S4194304x8_S4194304x1_0_0 : S4194304x8.Slices ![0, 0] S4194304x1
  bcast_S_S4194304x1 : S_.BroadcastsInDim S4194304x1 (![] : Fin 0 → Fin S4194304x1.rank)
  slices_S4194304x8_S4194304x1_0_1 : S4194304x8.Slices ![0, 1] S4194304x1
  slices_S4194304x8_S4194304x1_0_2 : S4194304x8.Slices ![0, 2] S4194304x1
  slices_S4194304x8_S4194304x1_0_3 : S4194304x8.Slices ![0, 3] S4194304x1
  slices_S4194304x8_S4194304x1_0_4 : S4194304x8.Slices ![0, 4] S4194304x1
  slices_S4194304x8_S4194304x1_0_5 : S4194304x8.Slices ![0, 5] S4194304x1
  slices_S4194304x8_S4194304x1_0_6 : S4194304x8.Slices ![0, 6] S4194304x1
  slices_S4194304x8_S4194304x1_0_7 : S4194304x8.Slices ![0, 7] S4194304x1
  concatenates_S4194304x1_S4194304x1_S4194304x1_S4194304x1_S4194304x1_S4194304x1_S4194304x1_S4194304x1_S4194304x8_d1 : Shape.Concatenates [S4194304x1, S4194304x1, S4194304x1, S4194304x1, S4194304x1, S4194304x1, S4194304x1, S4194304x1] S4194304x8 1
  bcast_S4194304x1_S4194304x8_0_1 : S4194304x1.BroadcastsInDim S4194304x8 (![0, 1] : Fin 2 → Fin S4194304x8.rank)
  bcast_S_S4194304x8 : S_.BroadcastsInDim S4194304x8 (![] : Fin 0 → Fin S4194304x8.rank)
  concatenates_S4194304x1_S4194304x1_S4194304x1_S4194304x1_S4194304x1_S4194304x1_S4194304x1_S4194304x1_S4194304x1_S4194304x1_S4194304x1_S4194304x1_S4194304x1_S4194304x1_S4194304x1_S4194304x1_S4194304x16_d1 : Shape.Concatenates [S4194304x1, S4194304x1, S4194304x1, S4194304x1, S4194304x1, S4194304x1, S4194304x1, S4194304x1, S4194304x1, S4194304x1, S4194304x1, S4194304x1, S4194304x1, S4194304x1, S4194304x1, S4194304x1] S4194304x16 1
  concatenates_S4194304x1_S4194304x1_S4194304x1_S4194304x1_S4194304x1_S4194304x1_S4194304x1_S4194304x7_d1 : Shape.Concatenates [S4194304x1, S4194304x1, S4194304x1, S4194304x1, S4194304x1, S4194304x1, S4194304x1] S4194304x7 1
  concatenates_S4194304x16_S4194304x7_S4194304x23_d1 : Shape.Concatenates [S4194304x16, S4194304x7] S4194304x23 1
  bcast_S4194304x1_S4194304x23_0_1 : S4194304x1.BroadcastsInDim S4194304x23 (![0, 1] : Fin 2 → Fin S4194304x23.rank)
  bcast_S_S4194304x23 : S_.BroadcastsInDim S4194304x23 (![] : Fin 0 → Fin S4194304x23.rank)
  concatenates_S4194304x1_S4194304x8_S4194304x23_S4194304x32_d1 : Shape.Concatenates [S4194304x1, S4194304x8, S4194304x23] S4194304x32 1

variable [Facts₀]

class Facts : Prop extends Facts₀ where

variable [Facts]
-- ==== Proof.LibRowRead.lean ====
/-
  Rows of a rank-2 array, read one entry at a time.

  Every array here has shape [n, w]: n rows of w entries. The lemmas say what the re-laying operations do to the entry at
  row `r`, column `q` (`ix2 r q`), each with its right-hand side fully determined by the left, so that one rewriting pass
  pushes an index from a result down to the entries of the operands:
    a one-column slice at offset `o` reads column `o`;
    a column stretched to width `w` reads the column's one entry;
    a splat reads its scalar;
    a reversal of the columns reads column `w - 1 - q`;
    unit-wide columns laid side by side read the `q`-th of them (stated for 7, 8, 16 and 23 columns);
    two or three blocks of columns laid side by side read the block that holds column `q`, at `q` less the widths before it.
  Nothing here depends on what the entries are.
-/
import Idealize.ShloMosaic.Lib.ValueIdx
import Idealize.ShloMosaic.Lib.Pipeline.Value

noncomputable section

namespace Idealize.ShloMosaic.RowRead

open Idealize.ShloMosaic Idealize.ShloMosaic.ValueIdx

variable {α : Type} {n : Nat}

/-- The one-column slice at column offset `o` holds, in row `r`, the entry `(r, o)`. -/
theorem slice_col {w : Nat} (o : Nat) (X : (⟨2, ![n, w]⟩ : Shape).Idx → α)
    (h : (⟨2, ![n, w]⟩ : Shape).Slices ![0, o] ⟨2, ![n, 1]⟩) (r : Fin n) (q : Fin 1) :
    extractStridedSlice ⟨2, ![n, 1]⟩ ![0, o] X h (ix2 r q)
      = X (ix2 r ⟨o, by have := h.2 1; simp at this; omega⟩) :=
  extractStridedSlice_apply _ X h _ _ (fun a => by
    match a with
    | ⟨0, _⟩ => exact (Nat.zero_add _).symm
    | ⟨1, _⟩ => show o = o + q.val; omega)

/-- A column stretched to `w` columns (the vector unit's broadcast) holds the column's entry of the row everywhere. -/
theorem bcastTo_col {w : Nat} (x : (⟨2, ![n, 1]⟩ : Shape).Idx → α)
    (h : (⟨2, ![n, 1]⟩ : Shape).Broadcasts ⟨2, ![n, w]⟩) (r : Fin n) (q : Fin w) :
    broadcastTo ⟨2, ![n, w]⟩ x h (ix2 r q) = x (ix2 r 0) :=
  broadcastTo_apply x h _ _ (fun a => by
    match a with
    | ⟨0, _⟩ =>
      show r.val = if n = 1 then 0 else r.val
      split
      · have := r.isLt; omega
      · rfl
    | ⟨1, _⟩ => rfl)

/-- The same for the host's broadcast with each axis sent to itself (the axis map is a hypothesis, so that the statement's
    left-hand side names no literal map). -/
theorem bcastInDim_col {w : Nat} (x : (⟨2, ![n, 1]⟩ : Shape).Idx → α) (dims : Fin 2 → Fin 2)
    (h : (⟨2, ![n, 1]⟩ : Shape).BroadcastsInDim ⟨2, ![n, w]⟩ dims) (hd : dims = ![0, 1]) (r : Fin n) (q : Fin w) :
    broadcastInDim ⟨2, ![n, w]⟩ dims h x (ix2 r q) = x (ix2 r 0) := by
  subst hd
  exact broadcastInDim_apply _ h x _ _ (fun a => by
    match a with
    | ⟨0, _⟩ =>
      show r.val = if n = 1 then 0 else r.val
      split
      · have := r.isLt; omega
      · rfl
    | ⟨1, _⟩ => rfl)

/-- A rank-0 value broadcast to any shape holds that value everywhere. -/
theorem bcastInDim_scalar {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply _ h x _ _ (fun a => a.elim0)

/-- Reversing the columns: column `q` of the result is column `w - 1 - q` of the operand (the list of reversed axes is a
    hypothesis, so that the statement's left-hand side names no literal list). -/
theorem reverse_col {w : Nat} (axes : List (Fin 2)) (hax : axes = [1]) (A : (⟨2, ![n, w]⟩ : Shape).Idx → α) (r : Fin n) (q : Fin w) :
    Host.reverse (s := ⟨2, ![n, w]⟩) axes A (ix2 r q) = A (ix2 r ⟨w - (q.val + 1), by have := q.isLt; omega⟩) := by
  subst hax
  unfold Host.reverse
  refine congrArg A (funext fun a => ?_)
  match a with
  | ⟨0, _⟩ => exact if_neg (by simp [Fin.ext_iff])
  | ⟨1, _⟩ => exact if_pos (by simp [Fin.ext_iff])

/-- A statement about every one of thirty-two columns follows from its thirty-two instances. -/
theorem forall_col32 {P : Fin 32 → Prop}
    (h : P ⟨0, by omega⟩ ∧ P ⟨1, by omega⟩ ∧ P ⟨2, by omega⟩ ∧ P ⟨3, by omega⟩ ∧ P ⟨4, by omega⟩ ∧ P ⟨5, by omega⟩ ∧ P ⟨6, by omega⟩
      ∧ P ⟨7, by omega⟩ ∧ P ⟨8, by omega⟩ ∧ P ⟨9, by omega⟩ ∧ P ⟨10, by omega⟩ ∧ P ⟨11, by omega⟩ ∧ P ⟨12, by omega⟩ ∧ P ⟨13, by omega⟩
      ∧ P ⟨14, by omega⟩ ∧ P ⟨15, by omega⟩ ∧ P ⟨16, by omega⟩ ∧ P ⟨17, by omega⟩ ∧ P ⟨18, by omega⟩ ∧ P ⟨19, by omega⟩ ∧ P ⟨20, by omega⟩
      ∧ P ⟨21, by omega⟩ ∧ P ⟨22, by omega⟩ ∧ P ⟨23, by omega⟩ ∧ P ⟨24, by omega⟩ ∧ P ⟨25, by omega⟩ ∧ P ⟨26, by omega⟩ ∧ P ⟨27, by omega⟩
      ∧ P ⟨28, by omega⟩ ∧ P ⟨29, by omega⟩ ∧ P ⟨30, by omega⟩ ∧ P ⟨31, by omega⟩) : ∀ q : Fin 32, P q := by
  obtain ⟨h0, h1, h2, h3, h4, h5, h6, h7, h8, h9, h10, h11, h12, h13, h14, h15, h16, h17, h18, h19, h20, h21, h22, h23, h24, h25,
    h26, h27, h28, h29, h30, h31⟩ := h
  intro ⟨q, hq⟩
  interval_cases q <;> assumption

/-- N unit-wide columns laid side by side: column `q` of row `r` is entry `(r, 0)` of the `q`-th column. -/
theorem cols_apply {N : Nat} (f : Fin N → (⟨2, ![n, 1]⟩ : Shape).Idx → α)
    (h : Shape.Concatenates ((List.ofFn fun k : Fin N => (⟨⟨2, ![n, 1]⟩, f k⟩ : (s : Shape) × (s.Idx → α))).map (·.1)) ⟨2, ![n, N]⟩ 1)
    (r : Fin n) (q : Fin N) :
    concatenate ⟨2, ![n, N]⟩ 1 (List.ofFn fun k : Fin N => (⟨⟨2, ![n, 1]⟩, f k⟩ : (s : Shape) × (s.Idx → α))) h (ix2 r q)
      = f q (ix2 r 0) :=
  concatenate_ofFn_unit_apply 1 f h rfl rfl (ix2 r q) q rfl (ix2 r 0) (fun b hb => by
    match b with
    | ⟨0, _⟩ => rfl
    | ⟨1, _⟩ => exact absurd rfl hb)

/-- 7 unit-wide columns laid side by side, read at row `r`, column `q`: the `q`-th column at `(r, 0)`. -/
theorem cols7_apply (c0 c1 c2 c3 c4 c5 c6 : (⟨2, ![n, 1]⟩ : Shape).Idx → α)
    (h : Shape.Concatenates (([⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩, ⟨⟨2, ![n, 1]⟩, c5⟩, ⟨⟨2, ![n, 1]⟩, c6⟩] : List ((s : Shape) × (s.Idx → α))).map (·.1)) ⟨2, ![n, 7]⟩ 1)
    (r : Fin n) (q : Fin 7) :
    concatenate ⟨2, ![n, 7]⟩ 1 [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩, ⟨⟨2, ![n, 1]⟩, c5⟩, ⟨⟨2, ![n, 1]⟩, c6⟩] h (ix2 r q)
      = ![c0, c1, c2, c3, c4, c5, c6] q (ix2 r 0) :=
  cols_apply ![c0, c1, c2, c3, c4, c5, c6] h r q

/-- 8 unit-wide columns laid side by side, read at row `r`, column `q`: the `q`-th column at `(r, 0)`. -/
theorem cols8_apply (c0 c1 c2 c3 c4 c5 c6 c7 : (⟨2, ![n, 1]⟩ : Shape).Idx → α)
    (h : Shape.Concatenates (([⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩, ⟨⟨2, ![n, 1]⟩, c5⟩, ⟨⟨2, ![n, 1]⟩, c6⟩, ⟨⟨2, ![n, 1]⟩, c7⟩] : List ((s : Shape) × (s.Idx → α))).map (·.1)) ⟨2, ![n, 8]⟩ 1)
    (r : Fin n) (q : Fin 8) :
    concatenate ⟨2, ![n, 8]⟩ 1 [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩, ⟨⟨2, ![n, 1]⟩, c5⟩, ⟨⟨2, ![n, 1]⟩, c6⟩, ⟨⟨2, ![n, 1]⟩, c7⟩] h (ix2 r q)
      = ![c0, c1, c2, c3, c4, c5, c6, c7] q (ix2 r 0) :=
  cols_apply ![c0, c1, c2, c3, c4, c5, c6, c7] h r q

/-- 16 unit-wide columns laid side by side, read at row `r`, column `q`: the `q`-th column at `(r, 0)`. -/
theorem cols16_apply (c0 c1 c2 c3 c4 c5 c6 c7 c8 c9 c10 c11 c12 c13 c14 c15 : (⟨2, ![n, 1]⟩ : Shape).Idx → α)
    (h : Shape.Concatenates (([⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩, ⟨⟨2, ![n, 1]⟩, c5⟩, ⟨⟨2, ![n, 1]⟩, c6⟩, ⟨⟨2, ![n, 1]⟩, c7⟩, ⟨⟨2, ![n, 1]⟩, c8⟩, ⟨⟨2, ![n, 1]⟩, c9⟩, ⟨⟨2, ![n, 1]⟩, c10⟩, ⟨⟨2, ![n, 1]⟩, c11⟩, ⟨⟨2, ![n, 1]⟩, c12⟩, ⟨⟨2, ![n, 1]⟩, c13⟩, ⟨⟨2, ![n, 1]⟩, c14⟩, ⟨⟨2, ![n, 1]⟩, c15⟩] : List ((s : Shape) × (s.Idx → α))).map (·.1)) ⟨2, ![n, 16]⟩ 1)
    (r : Fin n) (q : Fin 16) :
    concatenate ⟨2, ![n, 16]⟩ 1 [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩, ⟨⟨2, ![n, 1]⟩, c5⟩, ⟨⟨2, ![n, 1]⟩, c6⟩, ⟨⟨2, ![n, 1]⟩, c7⟩, ⟨⟨2, ![n, 1]⟩, c8⟩, ⟨⟨2, ![n, 1]⟩, c9⟩, ⟨⟨2, ![n, 1]⟩, c10⟩, ⟨⟨2, ![n, 1]⟩, c11⟩, ⟨⟨2, ![n, 1]⟩, c12⟩, ⟨⟨2, ![n, 1]⟩, c13⟩, ⟨⟨2, ![n, 1]⟩, c14⟩, ⟨⟨2, ![n, 1]⟩, c15⟩] h (ix2 r q)
      = ![c0, c1, c2, c3, c4, c5, c6, c7, c8, c9, c10, c11, c12, c13, c14, c15] q (ix2 r 0) :=
  cols_apply ![c0, c1, c2, c3, c4, c5, c6, c7, c8, c9, c10, c11, c12, c13, c14, c15] h r q

/-- 23 unit-wide columns laid side by side, read at row `r`, column `q`: the `q`-th column at `(r, 0)`. -/
theorem cols23_apply (c0 c1 c2 c3 c4 c5 c6 c7 c8 c9 c10 c11 c12 c13 c14 c15 c16 c17 c18 c19 c20 c21 c22 : (⟨2, ![n, 1]⟩ : Shape).Idx → α)
    (h : Shape.Concatenates (([⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩, ⟨⟨2, ![n, 1]⟩, c5⟩, ⟨⟨2, ![n, 1]⟩, c6⟩, ⟨⟨2, ![n, 1]⟩, c7⟩, ⟨⟨2, ![n, 1]⟩, c8⟩, ⟨⟨2, ![n, 1]⟩, c9⟩, ⟨⟨2, ![n, 1]⟩, c10⟩, ⟨⟨2, ![n, 1]⟩, c11⟩, ⟨⟨2, ![n, 1]⟩, c12⟩, ⟨⟨2, ![n, 1]⟩, c13⟩, ⟨⟨2, ![n, 1]⟩, c14⟩, ⟨⟨2, ![n, 1]⟩, c15⟩, ⟨⟨2, ![n, 1]⟩, c16⟩, ⟨⟨2, ![n, 1]⟩, c17⟩, ⟨⟨2, ![n, 1]⟩, c18⟩, ⟨⟨2, ![n, 1]⟩, c19⟩, ⟨⟨2, ![n, 1]⟩, c20⟩, ⟨⟨2, ![n, 1]⟩, c21⟩, ⟨⟨2, ![n, 1]⟩, c22⟩] : List ((s : Shape) × (s.Idx → α))).map (·.1)) ⟨2, ![n, 23]⟩ 1)
    (r : Fin n) (q : Fin 23) :
    concatenate ⟨2, ![n, 23]⟩ 1 [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩, ⟨⟨2, ![n, 1]⟩, c5⟩, ⟨⟨2, ![n, 1]⟩, c6⟩, ⟨⟨2, ![n, 1]⟩, c7⟩, ⟨⟨2, ![n, 1]⟩, c8⟩, ⟨⟨2, ![n, 1]⟩, c9⟩, ⟨⟨2, ![n, 1]⟩, c10⟩, ⟨⟨2, ![n, 1]⟩, c11⟩, ⟨⟨2, ![n, 1]⟩, c12⟩, ⟨⟨2, ![n, 1]⟩, c13⟩, ⟨⟨2, ![n, 1]⟩, c14⟩, ⟨⟨2, ![n, 1]⟩, c15⟩, ⟨⟨2, ![n, 1]⟩, c16⟩, ⟨⟨2, ![n, 1]⟩, c17⟩, ⟨⟨2, ![n, 1]⟩, c18⟩, ⟨⟨2, ![n, 1]⟩, c19⟩, ⟨⟨2, ![n, 1]⟩, c20⟩, ⟨⟨2, ![n, 1]⟩, c21⟩, ⟨⟨2, ![n, 1]⟩, c22⟩] h (ix2 r q)
      = ![c0, c1, c2, c3, c4, c5, c6, c7, c8, c9, c10, c11, c12, c13, c14, c15, c16, c17, c18, c19, c20, c21, c22] q (ix2 r 0) :=
  cols_apply ![c0, c1, c2, c3, c4, c5, c6, c7, c8, c9, c10, c11, c12, c13, c14, c15, c16, c17, c18, c19, c20, c21, c22] h r q

/-- Two blocks of columns side by side: column `q` lies in the first block when `q < a`, else in the second at `q - a`. -/
theorem pair_apply {a b N : Nat} (A : (⟨2, ![n, a]⟩ : Shape).Idx → α) (B : (⟨2, ![n, b]⟩ : Shape).Idx → α)
    (h : Shape.Concatenates (([⟨⟨2, ![n, a]⟩, A⟩, ⟨⟨2, ![n, b]⟩, B⟩] : List ((s : Shape) × (s.Idx → α))).map (·.1)) ⟨2, ![n, N]⟩ 1)
    (r : Fin n) (q : Fin N) :
    concatenate ⟨2, ![n, N]⟩ 1 [⟨⟨2, ![n, a]⟩, A⟩, ⟨⟨2, ![n, b]⟩, B⟩] h (ix2 r q)
      = if hq : q.val < a then A (ix2 r ⟨q.val, hq⟩)
        else B (ix2 r ⟨q.val - a, by have e := h.2.2; have := q.isLt; simp at e; omega⟩) := by
  have e : a + b = N := by have e := h.2.2; simpa using e
  split
  · next hq =>
    exact concatenate_apply_piece 1 _ h (ix2 r q) 0 (by simp) _ A rfl rfl 0 rfl (ix2 r ⟨q.val, hq⟩)
      (fun c hc => by match c with
        | ⟨0, _⟩ => rfl
        | ⟨1, _⟩ => exact absurd rfl hc) (by show 0 + q.val = q.val; omega)
  · next hq =>
    exact concatenate_apply_piece 1 _ h (ix2 r q) 1 (by simp) _ B rfl rfl a (by simp) (ix2 r ⟨q.val - a, by have := q.isLt; omega⟩)
      (fun c hc => by match c with
        | ⟨0, _⟩ => rfl
        | ⟨1, _⟩ => exact absurd rfl hc) (by show a + (q.val - a) = q.val; omega)

/-- Three blocks of columns side by side. -/
theorem triple_apply {a b c N : Nat} (A : (⟨2, ![n, a]⟩ : Shape).Idx → α) (B : (⟨2, ![n, b]⟩ : Shape).Idx → α)
    (C : (⟨2, ![n, c]⟩ : Shape).Idx → α)
    (h : Shape.Concatenates (([⟨⟨2, ![n, a]⟩, A⟩, ⟨⟨2, ![n, b]⟩, B⟩, ⟨⟨2, ![n, c]⟩, C⟩] : List ((s : Shape) × (s.Idx → α))).map (·.1)) ⟨2, ![n, N]⟩ 1)
    (r : Fin n) (q : Fin N) :
    concatenate ⟨2, ![n, N]⟩ 1 [⟨⟨2, ![n, a]⟩, A⟩, ⟨⟨2, ![n, b]⟩, B⟩, ⟨⟨2, ![n, c]⟩, C⟩] h (ix2 r q)
      = if hq : q.val < a then A (ix2 r ⟨q.val, hq⟩)
        else if hq' : q.val < a + b then B (ix2 r ⟨q.val - a, by omega⟩)
        else C (ix2 r ⟨q.val - (a + b), by have e := h.2.2; have := q.isLt; simp at e; omega⟩) := by
  have e : a + (b + c) = N := by have e := h.2.2; simpa using e
  split
  · next hq =>
    exact concatenate_apply_piece 1 _ h (ix2 r q) 0 (by simp) _ A rfl rfl 0 rfl (ix2 r ⟨q.val, hq⟩)
      (fun d hd => by match d with
        | ⟨0, _⟩ => rfl
        | ⟨1, _⟩ => exact absurd rfl hd) (by show 0 + q.val = q.val; omega)
  · next hq =>
    split
    · next hq' =>
      exact concatenate_apply_piece 1 _ h (ix2 r q) 1 (by simp) _ B rfl rfl a (by simp) (ix2 r ⟨q.val - a, by omega⟩)
        (fun d hd => by match d with
          | ⟨0, _⟩ => rfl
          | ⟨1, _⟩ => exact absurd rfl hd) (by show a + (q.val - a) = q.val; omega)
    · next hq' =>
      exact concatenate_apply_piece 1 _ h (ix2 r q) 2 (by simp) _ C rfl rfl (a + b) (by simp) (ix2 r ⟨q.val - (a + b), by have := q.isLt; omega⟩)
        (fun d hd => by match d with
          | ⟨0, _⟩ => rfl
          | ⟨1, _⟩ => exact absurd rfl hd) (by show (a + b) + (q.val - (a + b)) = q.val; omega)

end Idealize.ShloMosaic.RowRead

end
-- ==== Proof.Fp8Row.lean ====
/-
  One row of the conversion: eight real numbers in, thirty-two out.

  A row of the input is read as the eight bits of an FP8 number (sign, four exponent bits most significant first, three
  mantissa bits most significant first), each a real number; the result row is the thirty-two bits of the same number
  in binary32 (sign, eight exponent bits, twenty-three mantissa bits). Every gate is a polynomial on the reals, extended
  to the extended reals by the same formula, so the row is defined for any eight extended reals, bits or not:
    AND a b = a·b,   OR a b = (a + b) − a·b,   NOT a = 1 − a,   XOR a b = (a + b) − (2·a)·b,
    MUX s a b = s·a + (1 − s)·b.
  The exponent of a normal number is the FP8 exponent plus 120, by an eight-bit ripple-carry adder on those gates (least
  significant bit first: `carryStep`, `sumStep`); a subnormal number's exponent is 120, 119 or 118 by the position of its
  leading mantissa bit, and its mantissa is shifted up accordingly; zero has all fields zero. The constants 0, 1 and 2 are
  kept as the binary32 words that denote them: the two programs use the same words, and nothing here evaluates them.
-/
import Idealize.ShloMosaic.PureOps.Ideal
import Idealize.ShloMosaic.Lib.ValueIdx

noncomputable section

namespace Cert.Fp8Row

open Idealize.ShloMosaic

/-- The word 0x00000000 (the real 0). -/
abbrev zero : EReal := Ideal.ofBits .f32 0x00000000#32
/-- The word 0x3F800000 (the real 1). -/
abbrev one : EReal := Ideal.ofBits .f32 0x3F800000#32
/-- The word 0x40000000 (the real 2). -/
abbrev two : EReal := Ideal.ofBits .f32 0x40000000#32

def AND (a b : EReal) : EReal := a * b
def OR (a b : EReal) : EReal := (a + b) - a * b
def NOT (a : EReal) : EReal := one - a
def XOR (a b : EReal) : EReal := (a + b) - (two * a) * b
def MUX (s a b : EReal) : EReal := s * a + (one - s) * b

/-- The carry out of one position of the adder: both addends set, or exactly one set and a carry in. -/
def carryStep (a b c : EReal) : EReal := OR (AND a b) (AND (XOR a b) c)
/-- The sum bit of one position: the parity of the two addend bits and the carry in. -/
def sumStep (a b c : EReal) : EReal := XOR (XOR a b) c

variable (x : Fin 8 → EReal)

/-! The eight input bits by name. -/
abbrev sgn : EReal := x ⟨0, by omega⟩
abbrev e3 : EReal := x ⟨1, by omega⟩
abbrev e2 : EReal := x ⟨2, by omega⟩
abbrev e1 : EReal := x ⟨3, by omega⟩
abbrev e0 : EReal := x ⟨4, by omega⟩
abbrev m2 : EReal := x ⟨5, by omega⟩
abbrev m1 : EReal := x ⟨6, by omega⟩
abbrev m0 : EReal := x ⟨7, by omega⟩

/-- Some exponent bit is set. -/
def eNonzero : EReal := OR (OR (e0 x) (e1 x)) (OR (e2 x) (e3 x))
def eIsZero : EReal := NOT (eNonzero x)
/-- Some mantissa bit is set. -/
def mNonzero : EReal := OR (OR (m0 x) (m1 x)) (m2 x)
def isSubnormal : EReal := AND (eIsZero x) (mNonzero x)
def isTrueZero : EReal := AND (eIsZero x) (NOT (mNonzero x))

/-! The adder: FP8 exponent (e0, e1, e2, e3, 0, 0, 0, 0) plus 120 = (0, 0, 0, 1, 1, 1, 1, 0), least significant first. -/
def c1 : EReal := carryStep (e0 x) zero zero
def c2 : EReal := carryStep (e1 x) zero (c1 x)
def c3 : EReal := carryStep (e2 x) zero (c2 x)
def c4 : EReal := carryStep (e3 x) one (c3 x)
def c5 : EReal := carryStep zero one (c4 x)
def c6 : EReal := carryStep zero one (c5 x)
def c7 : EReal := carryStep zero one (c6 x)
def s0 : EReal := sumStep (e0 x) zero zero
def s1 : EReal := sumStep (e1 x) zero (c1 x)
def s2 : EReal := sumStep (e2 x) zero (c2 x)
def s3 : EReal := sumStep (e3 x) one (c3 x)
def s4 : EReal := sumStep zero one (c4 x)
def s5 : EReal := sumStep zero one (c5 x)
def s6 : EReal := sumStep zero one (c6 x)
def s7 : EReal := sumStep zero zero (c7 x)

/-- The normal exponent field, most significant bit first. -/
def expRaw : Fin 8 → EReal := ![s7 x, s6 x, s5 x, s4 x, s3 x, s2 x, s1 x, s0 x]

/-- The mantissa reads 01x: its leading set bit is the middle one. -/
def mIs01x : EReal := AND (NOT (m2 x)) (m1 x)

def bits120 : Fin 8 → EReal := ![zero, one, one, one, one, zero, zero, zero]
def bits119 : Fin 8 → EReal := ![zero, one, one, one, zero, one, one, one]
def bits118 : Fin 8 → EReal := ![zero, one, one, one, zero, one, one, zero]

/-- A subnormal's exponent field: 120 when the mantissa reads 1xx, 119 for 01x, else 118. -/
def subExp (q : Fin 8) : EReal := MUX (m2 x) (bits120 q) (MUX (mIs01x x) (bits119 q) (bits118 q))

def expField (q : Fin 8) : EReal := MUX (isTrueZero x) zero (MUX (isSubnormal x) (subExp x q) (expRaw x q))

/-- A subnormal's mantissa field: the bits below the leading one, shifted to the top. -/
def subMant : Fin 23 → EReal :=
  ![OR (AND (mIs01x x) (m0 x)) (AND (m2 x) (m1 x)), AND (m2 x) (m0 x), zero, zero, zero, zero, zero, zero, zero, zero, zero, zero, zero,
    zero, zero, zero, zero, zero, zero, zero, zero, zero, zero]

def normMant : Fin 23 → EReal :=
  ![m2 x, m1 x, m0 x, zero, zero, zero, zero, zero, zero, zero, zero, zero, zero, zero, zero, zero, zero, zero, zero, zero, zero, zero, zero]

def mantField (q : Fin 23) : EReal := MUX (isTrueZero x) zero (MUX (isSubnormal x) (subMant x q) (normMant x q))

/-- The result row: the sign, then the exponent field, then the mantissa field. -/
def row (q : Fin 32) : EReal :=
  if hq : q.val < 1 then sgn x
  else if hq' : q.val < 1 + 8 then expField x ⟨q.val - 1, by omega⟩
  else mantField x ⟨q.val - (1 + 8), by have := q.isLt; omega⟩

/-- The conversion of a whole 4194304 × 8 array of bits, row by row: entry `(r, q)` of the result is output bit `q` of row `r`. -/
def convert (X : (⟨2, ![4194304, 8]⟩ : Shape).Idx → EReal) : (⟨2, ![4194304, 32]⟩ : Shape).Idx → EReal :=
  fun i => row (fun k => X (ValueIdx.ix2 (i 0) k)) (i 1)

end Cert.Fp8Row

end
-- ==== Proof.KernelRow.lean ====
/-
  The kernel's body, one entry at a time.

  The body loads the point's 4096 × 8 block, computes 4096 × 32 numbers and stores them. Every operation it applies is
  row-local: a one-column slice, a concatenation of columns, a column broadcast across the row, or an entrywise sum,
  difference or product. So the entry at row `p`, column `q` of the stored value depends only on row `p` of the block, and
  is the `q`-th output bit of `Cert.Fp8Row.row` of that input row: column by column, pushing the index through every
  operation down to the loaded block leaves literally the gate formulas of `Fp8Row`.
-/
import proofs.«115330_j23407571764186_1_alg».proof.Proof.Gen.KernelIdeal.Frame
import proofs.«115330_j23407571764186_1_alg».proof.Proof.LibRowRead
import proofs.«115330_j23407571764186_1_alg».proof.Proof.Fp8Row
import Idealize.ShloMosaic.Lib.ValueIdx
import Idealize.ShloMosaic.Lib.Pipeline.Value

noncomputable section

namespace Cert.KernelIdeal.RowValue

open Cert.KernelIdeal Cert.KernelIdeal.Gen Idealize.ShloMosaic Idealize.ShloMosaic.TcCoe Idealize.SL.Sem
open Idealize.ShloMosaic.ValueIdx Idealize.ShloMosaic.RowRead

/-- The whole-block rectangle starts at the origin. -/
theorem hz : (![0, 0] : Fin 2 → Nat) = fun _ => 0 := funext fun a => by fin_cases a <;> rfl

/-- A scalar constant at the ideal instance is the extended real its word denotes. -/
theorem scalar_ofBits (φ : FTy) (b : BitVec φ.bits) : Scalar.ofBits (F := Ideal) φ b = Ideal.ofBits φ b := rfl

/-- WHAT THE BODY STORES, at row `p` and column `q`: output bit `q` of the conversion of row `p` of the loaded block. -/
theorem out_row (x0 : Vec Ideal S4096x8 .f32) (p : Fin 4096) (q : Fin 32) :
    out0_1 (F := Ideal) x0 (ix2 p q) = Cert.Fp8Row.row (fun k => x0 (ix2 p k)) q := by
  unfold out0_1
  rw [View.canon_unit_zero hz]
  simp only [View.ld_unit_zero (S := S4096x8) hz]
  obtain ⟨q, hq⟩ := q
  interval_cases q <;>
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, mulf_apply, addf_apply, subf_apply, broadcast_apply, shapeCast_self, scalar_ofBits,
      slice_col, bcastTo_col, cols8_apply, cols23_apply, triple_apply, Matrix.cons_val_succ', Matrix.cons_val_zero',
      ↓reduceDIte, Nat.reduceLT, Nat.reduceSub, Nat.reduceAdd, Nat.lt_irrefl, Nat.not_succ_le_self,
      Cert.Fp8Row.row, Cert.Fp8Row.expField, Cert.Fp8Row.mantField, Cert.Fp8Row.subExp, Cert.Fp8Row.subMant, Cert.Fp8Row.normMant, Cert.Fp8Row.expRaw, Cert.Fp8Row.bits120, Cert.Fp8Row.bits119, Cert.Fp8Row.bits118, Cert.Fp8Row.mIs01x, Cert.Fp8Row.isTrueZero, Cert.Fp8Row.isSubnormal, Cert.Fp8Row.mNonzero, Cert.Fp8Row.eIsZero, Cert.Fp8Row.eNonzero, Cert.Fp8Row.s0, Cert.Fp8Row.s1, Cert.Fp8Row.s2, Cert.Fp8Row.s3, Cert.Fp8Row.s4, Cert.Fp8Row.s5, Cert.Fp8Row.s6, Cert.Fp8Row.s7, Cert.Fp8Row.c1, Cert.Fp8Row.c2, Cert.Fp8Row.c3, Cert.Fp8Row.c4, Cert.Fp8Row.c5, Cert.Fp8Row.c6, Cert.Fp8Row.c7, Cert.Fp8Row.carryStep, Cert.Fp8Row.sumStep, Cert.Fp8Row.AND, Cert.Fp8Row.OR, Cert.Fp8Row.NOT, Cert.Fp8Row.XOR, Cert.Fp8Row.MUX, Cert.Fp8Row.sgn, Cert.Fp8Row.e0, Cert.Fp8Row.e1, Cert.Fp8Row.e2, Cert.Fp8Row.e3, Cert.Fp8Row.m0, Cert.Fp8Row.m1, Cert.Fp8Row.m2, Cert.Fp8Row.zero, Cert.Fp8Row.one, Cert.Fp8Row.two]

end Cert.KernelIdeal.RowValue

end
-- ==== Proof.KernelValue.lean ====
/-
  From the body's blocks to the whole result array.

  Grid point `t` stages rows `4096·t … 4096·t + 4095` of the argument and writes back the same rows of the result, all 32
  columns of them; the 1024 points' blocks tile the 4194304 × 32 array. So the array the kernel leaves is ONE function of
  the argument array, `convert`: entry `(r, q)` is output bit `q` of the conversion (`Cert.Fp8Row.row`) of row `r` of the
  argument.
-/
import proofs.«115330_j23407571764186_1_alg».proof.Proof.Gen.KernelIdeal.Value
import proofs.«115330_j23407571764186_1_alg».proof.Proof.KernelRow

noncomputable section

namespace Cert.KernelIdeal.RowValue

open Cert.KernelIdeal Cert.KernelIdeal.Gen Cert.KernelIdeal.Value Idealize.ShloMosaic Idealize.ShloMosaic.TcCoe Idealize.SL.Sem
open Idealize.ShloMosaic.ValueIdx Idealize.ShloMosaic.RowRead
open Idealize.ShloMosaic.Pipeline (Dat)

variable (m : (ℓ : Loc nD τ sig) → Buf (Elt Ideal) ℓ) (ρ : Dev nD → PrngReg)

/-- ONE POINT: a block `x0` that holds rows `b·4096 + p` of the array `X` is stored as rows `b·4096 + p` of `convert X`. -/
theorem point_eq (X : S4194304x8.Idx → EReal) (x0 : Vec Ideal S4096x8 .f32) (b : Nat)
    (hx : ∀ (p : Fin 4096) (k : Fin 8) (i : S4194304x8.Idx), (i 0).val = b * 4096 + p.val → (i 1).val = k.val → x0 (ix2 p k) = X i)
    (y : S4096x32.Idx) (i : S4194304x32.Idx) (hi0 : (i 0).val = b * 4096 + (y 0).val) (hi1 : (i 1).val = (y 1).val) :
    out0_1 (F := Ideal) x0 y = Cert.Fp8Row.convert X i := by
  obtain ⟨p, q, rfl⟩ : ∃ (p : Fin 4096) (q : Fin 32), y = ix2 p q := ⟨y 0, y 1, eq_ix2 y⟩
  rw [out_row]
  unfold Cert.Fp8Row.convert
  have hq : q = i 1 := Fin.ext hi1.symm
  have hrow : (fun k : Fin 8 => x0 (ix2 p k)) = fun k : Fin 8 => X (ix2 (i 0) k) :=
    funext fun k => hx p k (ix2 (i 0) k) hi0 rfl
  rw [hrow, hq]

/-- Both windows' block index on the row axis is the point's number, and on the column axis it is 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of `convert` of the argument array. -/
theorem flushed_eq (c : Dev nD) (t : Fin cfg0.N) :
    (dats m 0 c).flushed 1 t = ((cfg0.win 1).blk t).view.read (Elt Ideal) (Cert.Fp8Row.convert (V m c main_arg0)) := by
  rw [flushed1]
  obtain ⟨e0, e1, e2, e3⟩ := idx_facts t
  funext j
  refine point_eq (V m c main_arg0) (iblk m c 0 t) t.val ?_ j (((cfg0.win 1).blk t).view.emb j) ?_ ?_
  · intro p k i hi0 hi1
    show V m c main_arg0 (((cfg0.win 0).blk t).view.emb (ix2 p k)) = V m c main_arg0 i
    refine congrArg _ (funext fun a => Fin.ext ?_)
    match a with
    | ⟨0, _⟩ => show win0_0.index t (0 : Fin 2) * 4096 + 1 * p.val = (i 0).val; omega
    | ⟨1, _⟩ => show win0_0.index t (1 : Fin 2) * 8 + 1 * k.val = (i 1).val; omega
  · show win0_1.index t (0 : Fin 2) * 4096 + 1 * (j 0).val = t.val * 4096 + (j 0).val; omega
  · show win0_1.index t (1 : Fin 2) * 32 + 1 * (j 1).val = (j 1).val; omega

/-- An index of the result array is in point `t`'s block iff each coordinate is in the block's range on its axis. -/
theorem mem_blk (t : Fin cfg0.N) (i : S4194304x32.Idx) :
    i ∈ ((cfg0.win 1).blk t).view.set ↔ ∀ a : Fin 2, win0_1.index t a * S4096x32.size a ≤ (i a).val ∧ (i a).val < win0_1.index t a * S4096x32.size a + S4096x32.size a := by
  show i ∈ ((View.whole main_v0).slice (win0_1.rect t)).set ↔ _
  rw [View.set_slice_whole, Rect.mem_set_unit]
  exact Iff.rfl

/-- Every index of the result array lies in the block of the point its row falls in. -/
theorem cover (i : S4194304x32.Idx) : ∃ t : Fin cfg0.N, (cfg0.win 1).flush t = true ∧ i ∈ ((cfg0.win 1).blk t).view.set := by
  have hi0 : (i 0).val < 4194304 := (i 0).isLt
  have hi1 : (i 1).val < 32 := (i 1).isLt
  have hN : cfg0.N = 1024 := N_0
  refine ⟨⟨(i 0).val / 4096, by rw [hN]; omega⟩, flush0_1 _, ?_⟩
  obtain ⟨e0, e1, e2, e3⟩ := idx_facts ⟨(i 0).val / 4096, by rw [hN]; omega⟩
  rw [mem_blk]
  intro a
  match a with
  | ⟨0, _⟩ =>
    show win0_1.index _ (0 : Fin 2) * 4096 ≤ (i 0).val ∧ (i 0).val < win0_1.index _ (0 : Fin 2) * 4096 + 4096
    rw [e2]; show (i 0).val / 4096 * 4096 ≤ (i 0).val ∧ (i 0).val < (i 0).val / 4096 * 4096 + 4096; omega
  | ⟨1, _⟩ =>
    show win0_1.index _ (1 : Fin 2) * 32 ≤ (i 1).val ∧ (i 1).val < win0_1.index _ (1 : Fin 2) * 32 + 32
    rw [e3]; omega

/-- THE RESULT ARRAY after the run is `convert` of the argument array. -/
theorem final (c : Dev nD) : (dats m 0 c).arrAt 1 cfg0.N = Cert.Fp8Row.convert (m ((c : Thread nD τ).loc main_arg0)) :=
  (dats m 0 c).arrAt_eq_of_cover 1 (Cert.Fp8Row.convert (V m c main_arg0)) (fun t _ => flushed_eq m c t) cover

/-- The kernel's run, read: the result array ends at `convert` of the argument, the argument unchanged. -/
theorem run : θ_run defs (onTc (τ := τ) (main (F := Ideal))) ⟨m, fun _ => 0, ρ⟩ fun r => ∀ c : Dev nD,
      r.2.mem ((c : Thread nD τ).loc main_v0) = Cert.Fp8Row.convert (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.RowValue

end
-- ==== Proof.RefRow.lean ====
/-
  The reference's result, one entry at a time.

  The reference program applies, to the whole 4194304 × 8 array at once, the same row-local operations the kernel's body
  applies to a block: one-column slices, concatenations of columns (the 23 mantissa columns as 16 and 7), a column
  broadcast across the row, entrywise sums, differences and products, and one reversal of eight columns where the kernel
  lists the adder's bits in reverse. Its run leaves the result buffer at the fold of the 264 operations over the launch
  contents. Pushing the index `(r, q)` through that fold — each operation's result read at its own buffer, every other buffer
  as it was — from the result down to the argument leaves the gate formulas of `Cert.Fp8Row.row` on row `r` of the argument:
  the result array is `convert` of the argument. All thirty-two columns are read in one pass, so that what the columns
  share (which operation wrote which buffer) is worked out once.
-/
import proofs.«115330_j23407571764186_1_alg».proof.Proof.RefRunPatched
import proofs.«115330_j23407571764186_1_alg».proof.Proof.LibRowRead
import proofs.«115330_j23407571764186_1_alg».proof.Proof.Fp8Row
import Idealize.ShloMosaic.Lib.ValueIdx
import Idealize.ShloMosaic.Lib.Pipeline.Value

noncomputable section

namespace Cert.ReferenceIdeal.RowValue

open Cert.ReferenceIdeal Cert.ReferenceIdeal.Gen Cert.ReferenceIdeal.RunP Idealize.ShloMosaic Idealize.ShloMosaic.TcCoe Idealize.SL.Sem Idealize.ShloMosaic.StableHlo
open Idealize.ShloMosaic.ValueIdx Idealize.ShloMosaic.RowRead

set_option maxRecDepth 16384 in
set_option maxHeartbeats 40000000 in
/-- THE RESULT BUFFER after the operations, at row `r` and column `q`: output bit `q` of the conversion of row `r` of the
    argument buffer's contents. -/
theorem ref_row (V : Valuation τ sig (Elt Ideal)) (r : Fin 4194304) : ∀ q : Fin 32,
    (after ops V (Proc.devRef .tc main_v234) : S4194304x32.Idx → EReal) (ix2 r q)
      = Cert.Fp8Row.row (fun k => (V (Proc.devRef .tc main_arg0) : S4194304x8.Idx → EReal) (ix2 r k)) q := by
  apply forall_col32
  simp only [ops, after_append]
  simp (disch := decide) only [ops0, ops1, ops2, ops3, ops4, after_cons, after_nil,
      nullary_result', unary_result', binary_result', nary_result',
      nullary_result_ne', unary_result_ne', binary_result_ne', nary_result_ne',
      TRef.ofBuf, TRef.toBuf, cast_eq, Matrix.cons_val,
      mulf_apply, addf_apply, subf_apply, constant_apply, Ideal.ofBits_def,
      slice_col, bcastInDim_col, bcastInDim_scalar, reverse_col, cols7_apply, cols8_apply, cols16_apply, pair_apply, triple_apply,
      Matrix.cons_val_succ', Matrix.cons_val_zero',
      ↓reduceDIte, Nat.reduceLT, Nat.reduceSub, Nat.reduceAdd, Nat.lt_irrefl, Nat.not_succ_le_self, and_self,
      Cert.Fp8Row.row, Cert.Fp8Row.expField, Cert.Fp8Row.mantField, Cert.Fp8Row.subExp, Cert.Fp8Row.subMant, Cert.Fp8Row.normMant, Cert.Fp8Row.expRaw, Cert.Fp8Row.bits120, Cert.Fp8Row.bits119, Cert.Fp8Row.bits118, Cert.Fp8Row.mIs01x, Cert.Fp8Row.isTrueZero, Cert.Fp8Row.isSubnormal, Cert.Fp8Row.mNonzero, Cert.Fp8Row.eIsZero, Cert.Fp8Row.eNonzero, Cert.Fp8Row.s0, Cert.Fp8Row.s1, Cert.Fp8Row.s2, Cert.Fp8Row.s3, Cert.Fp8Row.s4, Cert.Fp8Row.s5, Cert.Fp8Row.s6, Cert.Fp8Row.s7, Cert.Fp8Row.c1, Cert.Fp8Row.c2, Cert.Fp8Row.c3, Cert.Fp8Row.c4, Cert.Fp8Row.c5, Cert.Fp8Row.c6, Cert.Fp8Row.c7, Cert.Fp8Row.carryStep, Cert.Fp8Row.sumStep, Cert.Fp8Row.AND, Cert.Fp8Row.OR, Cert.Fp8Row.NOT, Cert.Fp8Row.XOR, Cert.Fp8Row.MUX, Cert.Fp8Row.sgn, Cert.Fp8Row.e0, Cert.Fp8Row.e1, Cert.Fp8Row.e2, Cert.Fp8Row.e3, Cert.Fp8Row.m0, Cert.Fp8Row.m1, Cert.Fp8Row.m2, Cert.Fp8Row.zero, Cert.Fp8Row.one, Cert.Fp8Row.two]

/-- The reference's result array is `convert` of its argument array. -/
theorem ref_eq (m : (ℓ : Loc nD τ sig) → Buf (Elt Ideal) ℓ) (c : Dev nD) :
    Cert.ReferenceIdeal.RunP.res_main_v234 m c = Cert.Fp8Row.convert (m ((c.tc : Thread nD τ).loc main_arg0)) := by
  funext i
  obtain ⟨r, q, rfl⟩ : ∃ (r : Fin 4194304) (q : Fin 32), i = ix2 r q := ⟨i 0, i 1, eq_ix2 i⟩
  exact ref_row (launchContents m c) r q

end Cert.ReferenceIdeal.RowValue

end
-- ==== Proof.lean ====
/-
  FP8 (E4M3) bit pulses to binary32 bit pulses, by gates on real numbers: the kernel against its jnp reference.

  Both programs take a 4194304 × 8 array whose rows are the eight bits of an FP8 number and produce the 4194304 × 32
  array of the bits of the same number in binary32, every gate a polynomial (AND a b = a·b, OR a b = a + b − a·b, …) and
  the exponent re-biased by an eight-bit ripple-carry adder. The kernel does it block by block, 4096 rows at a grid point;
  the reference on the whole array at once. All the operations are row-local, so each side's result is read one entry at a
  time down to the entries of one row of the argument, where both are the SAME expression in the same order of operations
  (`Cert.Fp8Row.row`: Proof/Fp8Row.lean) — no algebraic law is used, and the precondition (finite inputs) is never opened:
  the two results agree on every extended-real input.
    Proof/Fp8Row.lean      the row function and `convert`, the whole array row by row;
    Proof/LibRowRead.lean  slices, broadcasts, reversals and concatenations of columns read at an entry;
    Proof/KernelRow.lean, Proof/KernelValue.lean   the kernel's stored block is rows of `convert`; the blocks tile the array;
    Proof/RefRow.lean      the reference's last stage is `convert`.
  The ideal pass rewrote nothing, so `preserves` is `True`.
-/
import proofs.«115330_j23407571764186_1_alg».proof.Defs
import proofs.«115330_j23407571764186_1_alg».proof.Proof.Gen.Kernel
import proofs.«115330_j23407571764186_1_alg».proof.Proof.Gen.Kernel.Skeleton
import proofs.«115330_j23407571764186_1_alg».proof.Proof.Gen.Kernel.Launch
import proofs.«115330_j23407571764186_1_alg».proof.Proof.Gen.Kernel.Points
import proofs.«115330_j23407571764186_1_alg».proof.Proof.Gen.Kernel.Frame
import proofs.«115330_j23407571764186_1_alg».proof.Proof.Gen.KernelIdeal
import proofs.«115330_j23407571764186_1_alg».proof.Proof.Gen.KernelIdeal.Skeleton
import proofs.«115330_j23407571764186_1_alg».proof.Proof.Gen.KernelIdeal.Launch
import proofs.«115330_j23407571764186_1_alg».proof.Proof.Gen.KernelIdeal.Points
import proofs.«115330_j23407571764186_1_alg».proof.Proof.Gen.KernelIdeal.Frame
import proofs.«115330_j23407571764186_1_alg».proof.Proof.Gen.ReferenceIdeal
import proofs.«115330_j23407571764186_1_alg».proof.Proof.Gen.KernelIdeal.Value
import proofs.«115330_j23407571764186_1_alg».proof.Proof.Gen.Pre_finite_inputs
import proofs.«115330_j23407571764186_1_alg».proof.Proof.KernelValue
import proofs.«115330_j23407571764186_1_alg».proof.Proof.RefRow
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and leaves its argument as it was: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both runs end with the result array at `convert` of the (common) argument array. -/
theorem algebraic : Cert.algebraic_KernelIdeal_ReferenceIdeal := by
  intro m ρ m' ρ' _ hagree
  refine ⟨fun c => Cert.Fp8Row.convert (m ((c.tc : Thread Cert.KernelIdeal.nD Cert.KernelIdeal.τ).loc Cert.KernelIdeal.main_arg0)),
    Cert.KernelIdeal.RowValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RowValue.ref_eq m' c, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
